-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x64x64 : Shape := ⟨4, ![64, 128, 64, 64]⟩
abbrev S_ : Shape := ⟨0, ![]⟩

class Facts : Prop where
  bcast_S_S64x128x64x64 : S_.BroadcastsInDim S64x128x64x64 (![] : Fin 0 → Fin S64x128x64x64.rank)
  reducesTo_S64x128x64x64_S_d0_1_2_3 : S64x128x64x64.ReducesTo [0, 1, 2, 3] S_
  h_S_ : 0 < S_.numel

variable [Facts]

def fn {F : FTy → Type} [FloatOps F] (main_arg0 : FVec F S64x128x64x64 .f32) : IVec S_ 1 :=
  let main_v0 : FVec F S64x128x64x64 .f32 := Host.absf main_arg0
  let main_cst : FVec F S_ .f32 := constant S_ .f32 0x7F800000#32
  let main_v1 : FVec F S64x128x64x64 .f32 := broadcastInDim S64x128x64x64 ![] bcast_S_S64x128x64x64 main_cst
  let main_v2 : IVec S64x128x64x64 1 := cmpf .olt main_v0 main_v1
  let main_c : IVec S_ 1 := constantI S_ 1 1#1
  let main_v3 : IVec S_ 1 := (fun x v => Host.reduce IntOp.andi x v reducesTo_S64x128x64x64_S_d0_1_2_3 h_S_) main_v2 main_c
  main_v3
-- ==== Kernel.lean ====
abbrev S64x128x64x64 : Shape := ⟨4, ![64, 128, 64, 64]⟩
abbrev S64x128x4096 : Shape := ⟨3, ![64, 128, 4096]⟩
abbrev S64x128x128 : Shape := ⟨3, ![64, 128, 128]⟩
abbrev S1x128x4096 : Shape := ⟨3, ![1, 128, 4096]⟩
abbrev S1x128x128 : Shape := ⟨3, ![1, 128, 128]⟩
abbrev S128x4096 : Shape := ⟨2, ![128, 4096]⟩
abbrev S128 : Shape := ⟨1, ![128]⟩
abbrev S128x1 : Shape := ⟨2, ![128, 1]⟩
abbrev S4096x128 : Shape := ⟨2, ![4096, 128]⟩
abbrev S128x128 : Shape := ⟨2, ![128, 128]⟩

abbrev nBuf : Space → Nat
  | .hbm => 3
  | .vmem => 4
  | .smem => 0
  | _ => 0

abbrev bufTy : (tb : Table) → Fin (tcTables nBuf tb) → BufTy
  | .hbm, ⟨0, _⟩ => ⟨S64x128x64x64, .f32⟩
  | .hbm, ⟨1, _⟩ => ⟨S64x128x4096, .f32⟩
  | .hbm, ⟨2, _⟩ => ⟨S64x128x128, .f32⟩
  | .local _ .vmem, ⟨0, _⟩ => ⟨S1x128x4096, .f32⟩
  | .local _ .vmem, ⟨1, _⟩ => ⟨S1x128x4096, .f32⟩
  | .local _ .vmem, ⟨2, _⟩ => ⟨S1x128x128, .f32⟩
  | .local _ .vmem, ⟨3, _⟩ => ⟨S1x128x128, .f32⟩
  | _, _ => ⟨S64x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x128x64x64_S64x128x4096 : S64x128x64x64.ShapeCasts S64x128x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  reduces_S128x4096_S128 : S128x4096.Reduces [1] S128
  shapeCasts_S128_S128x1 : S128.ShapeCasts S128x1
  broadcasts_S128x1_S128x4096 : S128x1.Broadcasts S128x4096
  bitsLt_bf16_f32 : FTy.bits .bf16 < FTy.bits .f32
  transposes_S128x4096_p1_0_S4096x128 : S128x4096.Transposes [1, 0] S4096x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  dot_S128x4096_S4096x128_S128x128_1_0_0_1_n_n_wf : DotDims.WF S128x4096 S4096x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S64x128x4096.size a
  hwx0_0 : ∀ i : grid0.Coords, EltTy.bits .f32 = 32 ∨ (Rect.block (s := S64x128x4096) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S64x128x128.size a
  hwx0_1 : ∀ i : grid0.Coords, EltTy.bits .f32 = 32 ∨ (Rect.block (s := S64x128x128) S1x128x128.size (cc0_transform_1 i) (hinb0_1 i)).WholeWords (EltTy.packing .f32)

variable [Facts₀]

def dot_S128x4096_S4096x128_S128x128_1_0_0_1_n_n : DotDims S128x4096 S4096x128 S128x128 where
  lhsContracting := [1]
  rhsContracting := [0]
  lhsNonContracting := [0]
  rhsNonContracting := [1]
  lhsBatch := []
  rhsBatch := []
  wf := dot_S128x4096_S4096x128_S128x128_1_0_0_1_n_n_wf

abbrev win0_0 : Pipeline.Window sig grid0 :=
  Pipeline.Window.ofSpec (Memref.whole main_v0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x128x64x64 : Shape := ⟨4, ![64, 128, 64, 64]⟩
abbrev S64x128x4096 : Shape := ⟨3, ![64, 128, 4096]⟩
abbrev S_ : Shape := ⟨0, ![]⟩
abbrev S64x128 : Shape := ⟨2, ![64, 128]⟩
abbrev S64x128x1 : Shape := ⟨3, ![64, 128, 1]⟩
abbrev S64x128x128 : Shape := ⟨3, ![64, 128, 128]⟩

abbrev nBuf : Space → Nat
  | .hbm => 14
  | .vmem => 0
  | .smem => 0
  | _ => 0

abbrev bufTy : (tb : Table) → Fin (tcTables nBuf tb) → BufTy
  | .hbm, ⟨0, _⟩ => ⟨S64x128x64x64, .f32⟩
  | .hbm, ⟨1, _⟩ => ⟨S64x128x4096, .f32⟩
  | .hbm, ⟨2, _⟩ => ⟨S_, .f32⟩
  | .hbm, ⟨3, _⟩ => ⟨S64x128, .f32⟩
  | .hbm, ⟨4, _⟩ => ⟨S64x128x1, .f32⟩
  | .hbm, ⟨5, _⟩ => ⟨S_, .f32⟩
  | .hbm, ⟨6, _⟩ => ⟨S64x128x1, .f32⟩
  | .hbm, ⟨7, _⟩ => ⟨S64x128x1, .f32⟩
  | .hbm, ⟨8, _⟩ => ⟨S64x128x4096, .f32⟩
  | .hbm, ⟨9, _⟩ => ⟨S64x128x4096, .f32⟩
  | .hbm, ⟨10, _⟩ => ⟨S64x128x128, .f32⟩
  | .hbm, ⟨11, _⟩ => ⟨S_, .f32⟩
  | .hbm, ⟨12, _⟩ => ⟨S64x128x128, .f32⟩
  | .hbm, ⟨13, _⟩ => ⟨S64x128x128, .f32⟩
  | _, _ => ⟨S64x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S64x128x64x64_S64x128x4096 : S64x128x64x64.ShapeCasts S64x128x4096
  reducesTo_S64x128x4096_S64x128_d2 : S64x128x4096.ReducesTo [2] S64x128
  h_S_ : 0 < S_.numel
  bcast_S64x128_S64x128x1_0_1 : S64x128.BroadcastsInDim S64x128x1 (![0, 1] : Fin 2 → Fin S64x128x1.rank)
  bcast_S_S64x128x1 : S_.BroadcastsInDim S64x128x1 (![] : Fin 0 → Fin S64x128x1.rank)
  bcast_S64x128x1_S64x128x4096_0_1_2 : S64x128x1.BroadcastsInDim S64x128x4096 (![0, 1, 2] : Fin 3 → Fin S64x128x4096.rank)
  bcast_S_S64x128x128 : S_.BroadcastsInDim S64x128x128 (![] : Fin 0 → Fin S64x128x128.rank)
  dot_S64x128x4096_S64x128x4096_S64x128x128_2_2_1_1_0_0_wf : DotDims.WF S64x128x4096 S64x128x4096 S64x128x128 [2] [2] [1] [1] [0] [0]

variable [Facts₀]

def dot_S64x128x4096_S64x128x4096_S64x128x128_2_2_1_1_0_0 : DotDims S64x128x4096 S64x128x4096 S64x128x128 where
  lhsContracting := [2]
  rhsContracting := [2]
  lhsNonContracting := [1]
  rhsNonContracting := [1]
  lhsBatch := [0]
  rhsBatch := [0]
  wf := dot_S64x128x4096_S64x128x4096_S64x128x128_2_2_1_1_0_0_wf

class Facts : Prop extends Facts₀ where

variable [Facts]
-- ==== Proof.CovSpec.lean ====
/-
  Covariance pooling over the extended reals: the specification and the one algebraic law.

  For a batch of matrices `xf[b]` of shape [128, 4096] (rows `c`, positions `k`), covariance pooling is
      cov[b, c, d] = (1/4096) · ∑ₖ (xf[b,c,k] − μ[b,c]) · (xf[b,d,k] − μ[b,d]),   μ[b,c] = (∑ₖ xf[b,c,k]) / 4096.
  One program scales the Gram matrix of the centred rows by the binary fraction 2⁻¹², the other divides it by 4096.
  On the extended reals a quotient by a nonzero real IS the product with its reciprocal, at the infinities too, and
  2⁻¹² is exactly 1/4096: so the two scalings are one function, with no finiteness needed.
  Also here: two re-layings of a column of row statistics read at an index (a vector of row values as a one-column
  matrix, and that column spread over every position of its row).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.CovPool

open Idealize.ShloMosaic Idealize.ShloMosaic.ValueIdx

/-! ## The two float literals -/

/-- The f32 pattern of `4096.0` denotes the real 4096. -/
theorem ofBits_4096 : Ideal.ofBits .f32 0x45800000#32 = ((4096 : ℝ) : EReal) := by
  simp [Ideal.ofBits, Ideal.ieee, -EReal.coe_mul]; norm_num

/-- The f32 pattern of `2.44140625e-4` denotes exactly 2⁻¹² = 1/4096: a binary fraction, so nothing is rounded. -/
theorem ofBits_inv4096 : Ideal.ofBits .f32 0x39800000#32 = ((1 / 4096 : ℝ) : EReal) := by
  simp [Ideal.ofBits, Ideal.ieee, -EReal.coe_mul]; norm_num

/-- Scaling by 2⁻¹² is dividing by 4096, for every extended real (infinite ones included). -/
theorem mul_inv4096_eq_div (g : EReal) :
    g * Ideal.ofBits .f32 0x39800000#32 = Ideal.div g (Ideal.ofBits .f32 0x45800000#32) := by
  rw [ofBits_4096, ofBits_inv4096, Ideal.div_coe (by norm_num : (4096 : ℝ) ≠ 0)]

/-! ## The specification -/

/-- The mean of row `c` of matrix `b`: the sum of its 4096 entries over 4096. -/
def rowMean (xf : (⟨3, ![64, 128, 4096]⟩ : Shape).Idx → EReal) (b : Fin 64) (c : Fin 128) : EReal :=
  Ideal.div (∑ k : Fin 4096, xf (ix3 b c k)) (Ideal.ofBits .f32 0x45800000#32)

/-- Row `c` of matrix `b` centred: each entry less the row's mean. -/
def centred (xf : (⟨3, ![64, 128, 4096]⟩ : Shape).Idx → EReal) (b : Fin 64) (c : Fin 128) (k : Fin 4096) : EReal :=
  xf (ix3 b c k) - rowMean xf b c

/-- The Gram matrix of the centred rows of matrix `b`. -/
def gram (xf : (⟨3, ![64, 128, 4096]⟩ : Shape).Idx → EReal) (b : Fin 64) (c d : Fin 128) : EReal :=
  ∑ k : Fin 4096, centred xf b c k * centred xf b d k

/-- Covariance pooling: the Gram matrix of the centred rows over 4096, as ONE function of the array, index by index. -/
def cov (xf : (⟨3, ![64, 128, 4096]⟩ : Shape).Idx → EReal) : (⟨3, ![64, 128, 128]⟩ : Shape).Idx → EReal :=
  fun i => Ideal.div (gram xf (i 0) (i 1) (i 2)) (Ideal.ofBits .f32 0x45800000#32)

/-! ## A column of row statistics, re-laid -/

variable {α : Type}

/-- A length-`a` vector cast to an `[a, 1]` column reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.CovPool

end
-- ==== Proof.RefCov.lean ====
/-
  The reference computes covariance pooling: read one host operation at a time, its result at `(b, c, d)` is the
  specification `cov` of the reshaped argument. The row sum starts from the zero literal, which adds nothing; the
  mean is that sum over 4096, spread along the row; the batched contraction over the last axis is the sum over `k` of
  the two centred rows' products; the last operation divides by 4096.
-/
import proofs.«124581_j44865228374072_1_alg».proof.Proof.Gen.ReferenceIdeal.Read
import proofs.«124581_j44865228374072_1_alg».proof.Proof.CovSpec

noncomputable section

namespace Cert.ReferenceIdeal.RefValue

open Cert.ReferenceIdeal Cert.ReferenceIdeal.Gen Cert.ReferenceIdeal.Read Idealize.ShloMosaic Idealize.ShloMosaic.ValueIdx Cert.CovPool

/-- The reference's centred array at `(b, c, k)` is the specification's centred row. -/
theorem centred_ref (x0 : (⟨S64x128x64x64, .f32⟩ : BufTy).Contents (Elt Ideal)) (b : Fin 64) (c : Fin 128) (k : Fin 4096) :
    val_main_v6 (F := Ideal) x0 (ix3 b c k) = centred (val_main_v0 (F := Ideal) x0) b c k := by
  rw [val_main_v6_apply, val_main_v5_apply, val_main_v4_apply, val_main_v3_apply, val_main_cst_0_apply, val_main_v2_apply,
    val_main_v1_apply, val_main_cst_apply]
  unfold centred rowMean
  simp only [Ideal.subf_def, Ideal.hostDivf_def, Ideal.ofBits_def, Ideal.ofBits_zero_f32, zero_add]
  refine congrArg (fun s => _ - Ideal.div s _) (Finset.sum_congr rfl fun k' _ => ?_)
  exact congrArg _ (funext fun a => Fin.ext (by match a with | ⟨0, _⟩ => rfl | ⟨1, _⟩ => rfl | ⟨2, _⟩ => rfl))

/-- The reference's result is covariance pooling of the reshaped argument. -/
theorem ref_is_cov (x0 : (⟨S64x128x64x64, .f32⟩ : BufTy).Contents (Elt Ideal)) :
    val_main_v9 (F := Ideal) x0 = cov (val_main_v0 (F := Ideal) x0) := by
  funext i
  obtain ⟨b, c, d, rfl⟩ : ∃ (b : Fin 64) (c : Fin 128) (d : Fin 128), i = ix3 b c d := ⟨i 0, i 1, i 2, eq_ix3 i⟩
  have hl : ∀ k, lidx_main_v7 (ix3 b c d) k = ix3 b c k := fun k =>
    funext fun a => Fin.ext (by match a with | ⟨0, _⟩ => rfl | ⟨1, _⟩ => rfl | ⟨2, _⟩ => rfl)
  have hr : ∀ k, ridx_main_v7 (ix3 b c d) k = ix3 b d k := fun k =>
    funext fun a => Fin.ext (by match a with | ⟨0, _⟩ => rfl | ⟨1, _⟩ => rfl | ⟨2, _⟩ => rfl)
  rw [val_main_v9_apply, val_main_v8_apply, val_main_cst_1_apply, val_main_v7_apply]
  simp only [hl, hr, centred_ref, Ideal.hostDivf_def, Ideal.ofBits_def]
  rfl

end Cert.ReferenceIdeal.RefValue

end
-- ==== Proof.BodyCov.lean ====
/-
  What the kernel body computes from one matrix, read at an index, on the extended reals.

  The body loads one [1, 128, 4096] block `x0` (one matrix of the batch), and stores
      out[u, c, d] = (∑ₖ (x0[0,c,k] − μ[c]) · (x0[0,d,k] − μ[d])) · 2⁻¹²,    μ[c] = (∑ₖ x0[0,c,k]) / 4096.
  Three steps: the centred matrix at an index (the lane sum of a row is a `Fin 4096`-indexed sum; the column of means is
  spread along its row); the matrix product of the centred matrix with its own transpose, into a zero accumulator,
  as the sum over the contracted position of the two rows' products (the narrowing of the operands to a shorter float
  format changes nothing at the ideal values); and the scaling.
-/
import proofs.«124581_j44865228374072_1_alg».proof.Proof.Gen.KernelIdeal.Skeleton
import proofs.«124581_j44865228374072_1_alg».proof.Proof.CovSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.CovPool

/-! ## The centred matrix -/

/-- The mean of row `c` of a [128, 4096] matrix. -/
def mean2 (x1 : FVec Ideal S128x4096 .f32) (c : Fin 128) : EReal :=
  Ideal.div (∑ k : Fin 4096, x1 (ix2 c k)) (Ideal.ofBits .f32 0x45800000#32)

/-- The body's centring of a [128, 4096] matrix: each entry less its row's mean, the mean taken as a lane sum over 4096. -/
def centre (x1 : FVec Ideal S128x4096 .f32) : FVec Ideal S128x4096 .f32 :=
  subf x1 (broadcastTo S128x4096
    (divf (shapeCast S128x1 (multiReduction .add [1] S128 x1 0x00000000#32 Facts₀.reduces_S128x4096_S128 (.inl rfl) rfl)
        Facts₀.shapeCasts_S128_S128x1)
      (broadcast S128x1 (Scalar.ofBits (F := Ideal) .f32 0x45800000#32)))
    Facts₀.broadcasts_S128x1_S128x4096)

/-- The lane sum of row `c`. -/
theorem rowsum_apply (x1 : FVec Ideal S128x4096 .f32) (c : Fin 128) :
    multiReduction (F := Ideal) .add [1] S128 x1 0x00000000#32 Facts₀.reduces_S128x4096_S128 (.inl rfl) rfl (ix1 c)
      = ∑ k : Fin 4096, x1 (ix2 c k) := by
  refine (Ideal.multiReduction_add_single x1 0x00000000#32 Facts₀.reduces_S128x4096_S128 (.inl rfl) rfl (ix1 c)).trans ?_
  refine Finset.sum_congr rfl fun k _ => ?_
  exact congrArg x1 (funext fun a => Fin.ext (by match a with | ⟨0, _⟩ => rfl | ⟨1, _⟩ => rfl))

/-- The centred matrix at `(c, k)`. -/
theorem centre_apply (x1 : FVec Ideal S128x4096 .f32) (c : Fin 128) (k : Fin 4096) :
    centre x1 (ix2 c k) = x1 (ix2 c k) - mean2 x1 c := by
  unfold centre mean2
  rw [subf_apply, broadcastTo_a1_ab_apply, divf_apply, shapeCast_a_a1_apply, broadcast_apply, rowsum_apply]
  rfl

/-! ## The product with the transpose -/

theorem lhs_gram_0 (i : S128x128.Idx) (q : dot_S128x4096_S4096x128_S128x128_1_0_0_1_n_n.contr.Idx) :
    (dot_S128x4096_S4096x128_S128x128_1_0_0_1_n_n.lhsIdx i q 0).val = (i 0).val := by
  unfold DotDims.lhsIdx
  rw [dif_neg (show ¬(0 : Fin S128x4096.rank) ∈ dot_S128x4096_S4096x128_S128x128_1_0_0_1_n_n.lhsBatch by decide), dif_pos (show (0 : Fin S128x4096.rank) ∈ dot_S128x4096_S4096x128_S128x128_1_0_0_1_n_n.lhsNonContracting by decide)]
  rfl
theorem lhs_gram_1 (i : S128x128.Idx) (q : dot_S128x4096_S4096x128_S128x128_1_0_0_1_n_n.contr.Idx) :
    (dot_S128x4096_S4096x128_S128x128_1_0_0_1_n_n.lhsIdx i q 1).val = (q ⟨0, by decide⟩).val :=
  dot_S128x4096_S4096x128_S128x128_1_0_0_1_n_n.lhsIdx_val_of_single rfl i q
theorem rhs_gram_0 (i : S128x128.Idx) (q : dot_S128x4096_S4096x128_S128x128_1_0_0_1_n_n.contr.Idx) :
    (dot_S128x4096_S4096x128_S128x128_1_0_0_1_n_n.rhsIdx i q 0).val = (q ⟨0, by decide⟩).val :=
  dot_S128x4096_S4096x128_S128x128_1_0_0_1_n_n.rhsIdx_val_of_single rfl i q
theorem rhs_gram_1 (i : S128x128.Idx) (q : dot_S128x4096_S4096x128_S128x128_1_0_0_1_n_n.contr.Idx) :
    (dot_S128x4096_S4096x128_S128x128_1_0_0_1_n_n.rhsIdx i q 1).val = (i 1).val := by
  unfold DotDims.rhsIdx
  rw [dif_neg (show ¬(1 : Fin S4096x128.rank) ∈ dot_S128x4096_S4096x128_S128x128_1_0_0_1_n_n.rhsBatch by decide), dif_pos (show (1 : Fin S4096x128.rank) ∈ dot_S128x4096_S4096x128_S128x128_1_0_0_1_n_n.rhsNonContracting by decide)]
  rfl

/-- A [128, 4096] matrix times a [4096, 128] one, into a zero accumulator, at `(c, d)`: the sum over the contracted
    position `k` of the left operand at `(c, k)` times the right at `(k, d)`. -/
theorem matmul_zero_apply (l : FVec Ideal S128x4096 .bf16) (r : FVec Ideal S4096x128 .bf16) (c d : Fin 128) :
    matmul (F := Ideal) dot_S128x4096_S4096x128_S128x128_1_0_0_1_n_n none l r (constant S128x128 .f32 0x00000000#32) (ix2 c d)
      = ∑ k : Fin 4096, l (ix2 c k) * r (ix2 k d) := by
  simp only [matmul]
  rw [Ideal.matmul_constant_zero_apply, ← Equiv.sum_comp (ValueIdx.contrEquiv1 dot_S128x4096_S4096x128_S128x128_1_0_0_1_n_n 4096 rfl rfl).symm]
  refine Finset.sum_congr rfl fun k _ => ?_
  have hk := ValueIdx.contrEquiv1_symm_val dot_S128x4096_S4096x128_S128x128_1_0_0_1_n_n 4096 rfl rfl k
  have el : dot_S128x4096_S4096x128_S128x128_1_0_0_1_n_n.lhsIdx (ix2 c d) ((ValueIdx.contrEquiv1 dot_S128x4096_S4096x128_S128x128_1_0_0_1_n_n 4096 rfl rfl).symm k) = ix2 c k := funext fun a => Fin.ext (by
    match a with
    | ⟨0, _⟩ => exact lhs_gram_0 _ _
    | ⟨1, _⟩ => exact (lhs_gram_1 _ _).trans hk)
  have er : dot_S128x4096_S4096x128_S128x128_1_0_0_1_n_n.rhsIdx (ix2 c d) ((ValueIdx.contrEquiv1 dot_S128x4096_S4096x128_S128x128_1_0_0_1_n_n 4096 rfl rfl).symm k) = ix2 k d := funext fun a => Fin.ext (by
    match a with
    | ⟨0, _⟩ => exact (rhs_gram_0 _ _).trans hk
    | ⟨1, _⟩ => exact rhs_gram_1 _ _)
  rw [el, er]

/-! ## The whole payload -/

/-- The value the body stores, at `(u, c, d)`: the Gram entry of the centred rows `c` and `d` of the loaded matrix, scaled by 2⁻¹². -/
theorem pay_apply (x0 : FVec Ideal S1x128x4096 .f32) (u : Fin 1) (c d : Fin 128) :
    k0_pay1 (F := Ideal) x0 (ix3 u c d)
      = (∑ k : Fin 4096,
            (x0 (ix3 (0 : Fin 1) c k) - Ideal.div (∑ k' : Fin 4096, x0 (ix3 (0 : Fin 1) c k')) (Ideal.ofBits .f32 0x45800000#32))
          * (x0 (ix3 (0 : Fin 1) d k) - Ideal.div (∑ k' : Fin 4096, x0 (ix3 (0 : Fin 1) d k')) (Ideal.ofBits .f32 0x45800000#32)))
        * Ideal.ofBits .f32 0x39800000#32 := by
  have hpay : k0_pay1 (F := Ideal) x0
      = shapeCast S1x128x128
          (mulf (matmul dot_S128x4096_S4096x128_S128x128_1_0_0_1_n_n none
              (truncf .bf16 (centre (shapeCast S128x4096 x0 Facts₀.shapeCasts_S1x128x4096_S128x4096)) Facts₀.bitsLt_bf16_f32)
              (transpose S4096x128 [1, 0]
                (truncf .bf16 (centre (shapeCast S128x4096 x0 Facts₀.shapeCasts_S1x128x4096_S128x4096)) Facts₀.bitsLt_bf16_f32)
                Facts₀.transposes_S128x4096_p1_0_S4096x128)
              (constant S128x128 .f32 0x00000000#32))
            (broadcast S128x128 (Scalar.ofBits (F := Ideal) .f32 0x39800000#32)))
          Facts₀.shapeCasts_S128x128_S1x128x128 := rfl
  rw [hpay, shapeCast_ab_1ab_apply, mulf_apply, broadcast_apply, matmul_zero_apply]
  refine congrArg (· * _) (Finset.sum_congr rfl fun k _ => ?_)
  rw [transpose_ix2_apply, truncf_apply, truncf_apply, centre_apply, centre_apply]
  unfold mean2
  simp only [shapeCast_1ab_ab_apply]

/-- When the loaded block is matrix `b` of the array `xf`, the stored value at `j = (u, c, d)` is covariance pooling of
    `xf` at `(b, c, d)`: the Gram entry is the specification's, and scaling it by 2⁻¹² is dividing it by 4096. -/
theorem pay_is_cov (xf : (⟨3, ![64, 128, 4096]⟩ : Shape).Idx → EReal) (x0 : FVec Ideal S1x128x4096 .f32) (b : Fin 64)
    (hx : ∀ (c : Fin 128) (k : Fin 4096), x0 (ix3 (0 : Fin 1) c k) = xf (ix3 b c k))
    (j : S1x128x128.Idx) (i : S64x128x128.Idx)
    (h0 : (i 0).val = b.val) (h1 : (i 1).val = (j 1).val) (h2 : (i 2).val = (j 2).val) :
    k0_pay1 (F := Ideal) x0 j = cov xf i := by
  obtain ⟨u, c, d, rfl⟩ : ∃ (u : Fin 1) (c d : Fin 128), j = ix3 u c d := ⟨j 0, j 1, j 2, eq_ix3 j⟩
  have hi : i = ix3 b c d := by
    funext a; apply Fin.ext
    match a with
    | ⟨0, _⟩ => exact h0
    | ⟨1, _⟩ => exact h1
    | ⟨2, _⟩ => exact h2
  subst hi
  rw [pay_apply]
  unfold cov gram centred rowMean
  simp only [hx]
  exact mul_inv4096_eq_div _

end Cert.KernelIdeal.Body

end
-- ==== Proof.KernelCov.lean ====
/-
  From blocks to the array: after the kernel's run the output array is covariance pooling of the reshaped argument.

  Grid point `t` (of 64) loads matrix `t` of the [64, 128, 4096] array as its one input block and writes block `t` of the
  [64, 128, 128] output: both index maps are `t ↦ (t, 0, 0)`. So what point `t` writes back is block `t` of `cov` of the
  array the region finds, the 64 blocks tile the output, and the array the region finds is the host's reshape of the
  argument.
-/
import proofs.«124581_j44865228374072_1_alg».proof.Proof.Gen.KernelIdeal.Value
import proofs.«124581_j44865228374072_1_alg».proof.Proof.BodyCov
import Idealize.ShloMosaic.Lib.Pipeline.Value
import Idealize.ShloMosaic.Lib.StableHlo.Run

noncomputable section

namespace Cert.KernelIdeal.CovValue

open Cert.KernelIdeal Cert.KernelIdeal.Gen Idealize.ShloMosaic Idealize.ShloMosaic.TcCoe Idealize.SL.Sem
open Idealize.ShloMosaic.ValueIdx Cert.CovPool
open Idealize.ShloMosaic.Pipeline (Dat)

variable (m : (ℓ : Loc nD τ sig) → Buf (Elt Ideal) ℓ) (ρ : Dev nD → PrngReg)

theorem off_zero : (![0, 0, 0] : Fin 3 → Nat) = fun _ => 0 := funext fun a => by fin_cases a <;> rfl

/-- Both index maps send point `t` to block `(t, 0, 0)`, and there are 64 points (decided over the grid). -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 ∧ t.val < 64 :=
  (by decide +kernel : ∀ t : Fin grid0.N, _)

/-- The array the region stages its input from is the host's reshape of the argument. -/
theorem V_main_v0 (c : Dev nD) :
    (V m c main_v0 : S64x128x4096.Idx → EReal)
      = shapeCast S64x128x4096 (m ((c : Thread nD τ).loc main_arg0)) Facts₀.shapeCasts_S64x128x64x64_S64x128x4096 := by
  dsimp only [Gen.V, Gen.hostOps0]; after_results; rfl

/-- WHAT POINT `t` WRITES BACK is block `t` of covariance pooling of the array the region finds. -/
theorem flushed_eq (c : Dev nD) (t : Fin cfg0.N) :
    (dats m 0 c).flushed 1 t = ((cfg0.win 1).blk t).view.read (Elt Ideal) (cov (V m c main_v0)) := by
  rw [Value.flushed1]
  unfold out0_1
  rw [View.canon_unit_zero off_zero]
  simp only [View.ld_unit_zero (S := S1x128x4096) off_zero]
  obtain ⟨e0, e1, e2, f0, f1, f2, hN⟩ := idx_facts t
  funext j
  show k0_pay1 (F := Ideal) (iblk m c 0 t) j = cov (V m c main_v0) (((cfg0.win 1).blk t).view.emb j)
  refine Body.pay_is_cov (V m c main_v0) (iblk m c 0 t) ⟨t.val, hN⟩ ?_ j _ ?_ ?_ ?_
  · intro c' k
    show V m c main_v0 (((cfg0.win 0).blk t).view.emb (ix3 (0 : Fin 1) c' k)) = V m c main_v0 (ix3 ⟨t.val, hN⟩ c' k)
    refine congrArg (V m c main_v0) (funext fun a => Fin.ext ?_)
    match a with
    | ⟨0, _⟩ => show win0_0.index t (0 : Fin 3) * 1 + 1 * 0 = t.val; omega
    | ⟨1, _⟩ => show win0_0.index t (1 : Fin 3) * 128 + 1 * c'.val = c'.val; omega
    | ⟨2, _⟩ => show win0_0.index t (2 : Fin 3) * 4096 + 1 * k.val = k.val; omega
  · show win0_1.index t (0 : Fin 3) * 1 + 1 * (j 0).val = t.val
    have hj : (j 0).val < 1 := (j 0).isLt
    omega
  · show win0_1.index t (1 : Fin 3) * 128 + 1 * (j 1).val = (j 1).val; omega
  · show win0_1.index t (2 : Fin 3) * 128 + 1 * (j 2).val = (j 2).val; omega

/-- An index of the output is in point `t`'s block iff each coordinate is in the block's range on its axis. -/
theorem mem_blk (t : Fin cfg0.N) (i : S64x128x128.Idx) :
    i ∈ ((cfg0.win 1).blk t).view.set ↔ ∀ a : Fin 3, win0_1.index t a * S1x128x128.size a ≤ (i a).val ∧ (i a).val < win0_1.index t a * S1x128x128.size a + S1x128x128.size a := by
  show i ∈ ((View.whole main_v1).slice (win0_1.rect t)).set ↔ _
  rw [View.set_slice_whole, Rect.mem_set_unit]
  exact Iff.rfl

/-- The 64 blocks tile the output: index `(b, c, d)` is in point `b`'s block. -/
theorem cover (i : S64x128x128.Idx) : ∃ t : Fin cfg0.N, (cfg0.win 1).flush t = true ∧ i ∈ ((cfg0.win 1).blk t).view.set := by
  have hi0 : (i 0).val < 64 := (i 0).isLt
  have hi1 : (i 1).val < 128 := (i 1).isLt
  have hi2 : (i 2).val < 128 := (i 2).isLt
  refine ⟨⟨(i 0).val, by rw [show cfg0.N = 64 from N_0]; exact hi0⟩, flush0_1 _, ?_⟩
  rw [mem_blk]
  obtain ⟨-, -, -, f0, f1, f2, -⟩ := idx_facts ⟨(i 0).val, by rw [show cfg0.N = 64 from N_0]; exact hi0⟩
  intro a
  match a with
  | ⟨0, _⟩ => show win0_1.index _ (0 : Fin 3) * 1 ≤ (i 0).val ∧ (i 0).val < win0_1.index _ (0 : Fin 3) * 1 + 1; rw [f0]; show (i 0).val * 1 ≤ (i 0).val ∧ (i 0).val < (i 0).val * 1 + 1; omega
  | ⟨1, _⟩ => show win0_1.index _ (1 : Fin 3) * 128 ≤ (i 1).val ∧ (i 1).val < win0_1.index _ (1 : Fin 3) * 128 + 128; rw [f1]; omega
  | ⟨2, _⟩ => show win0_1.index _ (2 : Fin 3) * 128 ≤ (i 2).val ∧ (i 2).val < win0_1.index _ (2 : Fin 3) * 128 + 128; rw [f2]; omega

/-- THE OUTPUT ARRAY after the run is covariance pooling of the reshaped argument. -/
theorem final (c : Dev nD) :
    (dats m 0 c).arrAt 1 cfg0.N
      = cov (shapeCast S64x128x4096 (m ((c : Thread nD τ).loc main_arg0)) Facts₀.shapeCasts_S64x128x64x64_S64x128x4096) := by
  rw [← V_main_v0 m c]
  exact (dats m 0 c).arrAt_eq_of_cover 1 (cov (V m c main_v0)) (fun t _ => flushed_eq m c t) cover

/-- The kernel's run, read: the result array at `cov` of the reshaped argument, the argument unchanged. -/
theorem run : θ_run defs (onTc (τ := τ) (main (F := Ideal))) ⟨m, fun _ => 0, ρ⟩ fun r => ∀ c : Dev nD,
      r.2.mem ((c : Thread nD τ).loc main_v1)
          = cov (shapeCast S64x128x4096 (m ((c : Thread nD τ).loc main_arg0)) Facts₀.shapeCasts_S64x128x64x64_S64x128x4096)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.CovValue

end
-- ==== Proof.lean ====
/-
  Covariance pooling, kernel against reference, on the extended reals.

  Both programs reshape x : [64, 128, 64, 64] to xf : [64, 128, 4096] and compute, for each matrix `b` of the batch,
      cov[b, c, d] = (∑ₖ (xf[b,c,k] − μ[b,c]) · (xf[b,d,k] − μ[b,d])) / 4096,      μ[b,c] = (∑ₖ xf[b,c,k]) / 4096.
  The kernel takes one matrix per grid point, centres its rows, multiplies the centred matrix by its own transpose
  (narrowed to a shorter float format first: the identity at the ideal values) and scales the product by 2⁻¹²; the
  reference centres the whole array, contracts the last axis batch by batch and divides by 4096. The row sums, the
  centring and the contraction are the same sums term for term; 2⁻¹² is exactly 1/4096, and on the extended reals a
  quotient by a nonzero real is the product with its reciprocal everywhere, so the two scalings agree with no appeal to
  finiteness: the precondition is never opened.

  Proof/CovSpec.lean    the specification `cov`, the two literals, the scaling law, a column of row statistics re-laid
  Proof/RefCov.lean     the reference, read one operation at a time, is `cov` of the reshaped argument
  Proof/BodyCov.lean    the value the kernel body stores from one loaded matrix, at an index
  Proof/KernelCov.lean  point `t` writes block `t` of `cov`; the 64 blocks tile the output; the kernel's run, read
  The frames of the two kernel programs and the run of the reference are the generated ones; the idealization rewrote
  nothing, so `preserves` has nothing to state.
-/
import proofs.«124581_j44865228374072_1_alg».proof.Defs
import proofs.«124581_j44865228374072_1_alg».proof.Proof.Gen.Kernel
import proofs.«124581_j44865228374072_1_alg».proof.Proof.Gen.Kernel.Skeleton
import proofs.«124581_j44865228374072_1_alg».proof.Proof.Gen.Kernel.Launch
import proofs.«124581_j44865228374072_1_alg».proof.Proof.Gen.Kernel.Points
import proofs.«124581_j44865228374072_1_alg».proof.Proof.Gen.Kernel.Frame
import proofs.«124581_j44865228374072_1_alg».proof.Proof.Gen.KernelIdeal
import proofs.«124581_j44865228374072_1_alg».proof.Proof.Gen.KernelIdeal.Skeleton
import proofs.«124581_j44865228374072_1_alg».proof.Proof.Gen.KernelIdeal.Launch
import proofs.«124581_j44865228374072_1_alg».proof.Proof.Gen.KernelIdeal.Points
import proofs.«124581_j44865228374072_1_alg».proof.Proof.Gen.KernelIdeal.Frame
import proofs.«124581_j44865228374072_1_alg».proof.Proof.Gen.ReferenceIdeal
import proofs.«124581_j44865228374072_1_alg».proof.Proof.Gen.Pre_finite_inputs
import proofs.«124581_j44865228374072_1_alg».proof.Proof.Gen.KernelIdeal.Value
import proofs.«124581_j44865228374072_1_alg».proof.Proof.Gen.ReferenceIdeal.Run
import proofs.«124581_j44865228374072_1_alg».proof.Proof.Gen.ReferenceIdeal.Read
import proofs.«124581_j44865228374072_1_alg».proof.Proof.CovSpec
import proofs.«124581_j44865228374072_1_alg».proof.Proof.RefCov
import proofs.«124581_j44865228374072_1_alg».proof.Proof.BodyCov
import proofs.«124581_j44865228374072_1_alg».proof.Proof.KernelCov
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a list of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with covariance pooling of the reshaped argument: the kernel's output array block by block, the
    reference's result operation by operation; the arguments agree, so the results are equal. -/
theorem algebraic : Cert.algebraic_KernelIdeal_ReferenceIdeal := by
  intro m ρ m' ρ' _ hagree
  refine ⟨_, Cert.KernelIdeal.CovValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_is_cov, hagree c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
